-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8388608 : Shape := ⟨1, ![8388608]⟩
abbrev S131072 : Shape := ⟨1, ![131072]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S131072 : S_.BroadcastsInDim S131072 (![] : Fin 0 → Fin S131072.rank)
  reducesTo_S131072_S_d0 : S131072.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : IVec S8388608 32) (main_arg2 : FVec F S131072 .f32) (main_arg3 : FVec F S131072 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S131072 .f32 := Host.absf main_arg3
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S8388608 : Shape := ⟨1, ![8388608]⟩
abbrev S131072 : Shape := ⟨1, ![131072]⟩
abbrev S4096 : Shape := ⟨1, ![4096]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S131072x128 : Shape := ⟨2, ![131072, 128]⟩
abbrev S131072x1 : Shape := ⟨2, ![131072, 1]⟩
abbrev S4096x4096 : Shape := ⟨2, ![4096, 4096]⟩
abbrev S1x4096 : Shape := ⟨2, ![1, 4096]⟩
abbrev S1024x4096 : Shape := ⟨2, ![1024, 4096]⟩
abbrev S1x1024 : Shape := ⟨2, ![1, 1024]⟩
abbrev S1024x1024 : Shape := ⟨2, ![1024, 1024]⟩
abbrev S4096x1024 : Shape := ⟨2, ![4096, 1024]⟩

abbrev nBuf : Space → Nat
  | .hbm => 31
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8388608, .i32⟩
  | .hbm, ⟨2, _⟩ => ⟨S131072, .f32⟩
  | .hbm, ⟨3, _⟩ => ⟨S131072, .f32⟩
  | .hbm, ⟨4, _⟩ => ⟨S4096, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x1, .i32⟩
  | .hbm, ⟨16, _⟩ => ⟨S8388608x2, .i32⟩
  | .hbm, ⟨17, _⟩ => ⟨S16777216, .i32⟩
  | .hbm, ⟨18, _⟩ => ⟨S16777216, .f32⟩
  | .hbm, ⟨19, _⟩ => ⟨S131072x128, .f32⟩
  | .hbm, ⟨20, _⟩ => ⟨S131072x1, .f32⟩
  | .hbm, ⟨21, _⟩ => ⟨S131072x128, .f32⟩
  | .hbm, ⟨22, _⟩ => ⟨S131072x128, .f32⟩
  | .hbm, ⟨23, _⟩ => ⟨S131072x1, .f32⟩
  | .hbm, ⟨24, _⟩ => ⟨S131072x128, .f32⟩
  | .hbm, ⟨25, _⟩ => ⟨S131072x128, .f32⟩
  | .hbm, ⟨26, _⟩ => ⟨S4096x4096, .f32⟩
  | .hbm, ⟨27, _⟩ => ⟨S4096x4096, .bf16⟩
  | .hbm, ⟨28, _⟩ => ⟨S8192x4096, .bf16⟩
  | .hbm, ⟨29, _⟩ => ⟨S1x4096, .f32⟩
  | .hbm, ⟨30, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S16777216_S131072x128 : S16777216.ShapeCasts S131072x128
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S131072x128_S4096x4096 : S131072x128.ShapeCasts S4096x4096
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  transposes_S1024x4096_p1_0_S4096x1024 : S1024x4096.Transposes [1, 0] S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x4096_S4096x1024_S1024x1024_1_0_0_1_n_n_wf : DotDims.WF S1024x4096 S4096x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

abbrev win0_0 : Pipeline.Window sig grid0 :=
  Pipeline.Window.ofSpec (Memref.whole main_v20) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8388608 : Shape := ⟨1, ![8388608]⟩
abbrev S131072 : Shape := ⟨1, ![131072]⟩
abbrev S4096 : Shape := ⟨1, ![4096]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S131072x128 : Shape := ⟨2, ![131072, 128]⟩
abbrev S131072x1 : Shape := ⟨2, ![131072, 1]⟩
abbrev S4096x4096 : Shape := ⟨2, ![4096, 4096]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8388608, .i32⟩
  | .hbm, ⟨2, _⟩ => ⟨S131072, .f32⟩
  | .hbm, ⟨3, _⟩ => ⟨S131072, .f32⟩
  | .hbm, ⟨4, _⟩ => ⟨S4096, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x1, .i32⟩
  | .hbm, ⟨16, _⟩ => ⟨S8388608x2, .i32⟩
  | .hbm, ⟨17, _⟩ => ⟨S16777216, .i32⟩
  | .hbm, ⟨18, _⟩ => ⟨S16777216, .f32⟩
  | .hbm, ⟨19, _⟩ => ⟨S131072x128, .f32⟩
  | .hbm, ⟨20, _⟩ => ⟨S131072x1, .f32⟩
  | .hbm, ⟨21, _⟩ => ⟨S131072x128, .f32⟩
  | .hbm, ⟨22, _⟩ => ⟨S131072x128, .f32⟩
  | .hbm, ⟨23, _⟩ => ⟨S131072x1, .f32⟩
  | .hbm, ⟨24, _⟩ => ⟨S131072x128, .f32⟩
  | .hbm, ⟨25, _⟩ => ⟨S131072x128, .f32⟩
  | .hbm, ⟨26, _⟩ => ⟨S4096x4096, .f32⟩
  | .hbm, ⟨27, _⟩ => ⟨S4096x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S16777216_S131072x128 : S16777216.ShapeCasts S131072x128
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S131072x128_S4096x4096 : S131072x128.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.TileEntry.lean ====
/-
  One tile of the kernel's output, entry by entry. The body multiplies a 1024×4096 block of `x` by the transpose of
  a 1024×4096 block of the weight, accumulating from zero, and adds a 1×1024 block of the bias to every row. So
  at row `p` and column `q` of the tile it holds

      (∑ k, xblk[p, k] · wblk[q, k]) + bblk[0, q].
-/
import proofs.«402993_j24721831756580_1_alg».proof.Proof.Gen.KernelIdeal.Skeleton
import proofs.«402993_j24721831756580_1_alg».proof.Proof.LibPlainDot
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- The transposed weight block at `(k, q)` is the block at `(q, k)`. -/
theorem transposed_entry (y : FVec Ideal S1024x4096 .bf16) (k : Fin 4096) (q : Fin 1024) :
    transpose S4096x1024 [1, 0] y transposes_S1024x4096_p1_0_S4096x1024 (ix2 k q) = y (ix2 q k) :=
  transpose_apply [1, 0] y transposes_S1024x4096_p1_0_S4096x1024 (ix2 k q) (ix2 q k) (fun b => match b with
    | ⟨0, _⟩ => rfl
    | ⟨1, _⟩ => rfl)

/-- The bias row copied to every row of the tile: at `(p, q)` it is the row's entry `q`. -/
theorem bias_entry (y : FVec Ideal S1x1024 .f32) (p q : Fin 1024) :
    broadcastTo S1024x1024 y broadcasts_S1x1024_S1024x1024 (ix2 p q) = y (ix2 0 q) :=
  broadcastTo_apply y broadcasts_S1x1024_S1024x1024 (ix2 p q) (ix2 0 q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- The tile at `(p, q)`: the inner product of row `p` of the `x` block with row `q` of the weight block, plus
    the bias block's entry `q`. -/
theorem pay_entry (x0 x1 : Vec Ideal S1024x4096 .bf16) (x2 : Vec Ideal S1x1024 .f32) (p q : Fin 1024) :
    k0_pay1 (F := Ideal) x0 x1 x2 (ix2 p q) = (∑ k : Fin 4096, x0 (ix2 p k) * x1 (ix2 q k)) + x2 (ix2 0 q) := by
  unfold k0_pay1
  rw [addf_apply, shapeCast_self, shapeCast_self, shapeCast_self]
  refine congrArg₂ (· + ·) ?_ (bias_entry x2 p q)
  refine (Cert.Lib.PlainDot.matmul_plain_zero_apply none x0 _ p q).trans ?_
  exact Finset.sum_congr rfl fun k _ => congrArg (x0 (ix2 p k) * ·) (transposed_entry x1 k q)

end Cert.KernelIdeal.Tile

end
-- ==== Proof.KernelArray.lean ====
/-
  The kernel's result array as one function of the three arrays the tiled product reads. The grid has 8 × 4
  points; point `(a, b)` reads rows `1024·a …` of `x`, rows `1024·b …` of the weight and columns `1024·b …` of
  the bias row, and writes tile `(a, b)` of the result. Entry `(p, q)` of that tile is the inner product of row
  `1024·a + p` of `x` with row `1024·b + q` of the weight plus the bias at `1024·b + q`: the entry
  `(1024·a + p, 1024·b + q)` of `x · wᵀ + b`. The 32 tiles cover the 8192×4096 result, so the whole array is that.
-/
import proofs.«402993_j24721831756580_1_alg».proof.Proof.Gen.KernelIdeal.Value
import proofs.«402993_j24721831756580_1_alg».proof.Proof.TileEntry
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- `x · wᵀ + b` over the arrays as the region stages them: `x` as 8192×4096, the weight as 4096×4096 and the bias
    as one row of 4096. -/
def tiled (x : S8192x4096.Idx → EReal) (w : S4096x4096.Idx → EReal) (b : S1x4096.Idx → EReal) : S8192x4096.Idx → EReal :=
  fun i => (∑ k : Fin 4096, x (ix2 (i 0) k) * w (ix2 (i 1) k)) + b (ix2 0 (i 1))

theorem tiled_apply (x : S8192x4096.Idx → EReal) (w : S4096x4096.Idx → EReal) (b : S1x4096.Idx → EReal) (i : S8192x4096.Idx) :
    tiled x w b i = (∑ k : Fin 4096, x (ix2 (i 0) k) * w (ix2 (i 1) k)) + b (ix2 0 (i 1)) := rfl

/-- The three arrays as the region finds them, entries as extended reals: `x`, the weight, and the bias as one row. -/
abbrev xArr (c : Dev nD) : S8192x4096.Idx → EReal := V m c main_v20
abbrev wArr (c : Dev nD) : S4096x4096.Idx → EReal := V m c main_v19
abbrev bArr (c : Dev nD) : S1x4096.Idx → EReal := V m c main_v21

/-- The tile's payload at an entry of the tile, the entry given by its two coordinates. -/
theorem pay_at (x0 x1 : Vec Ideal S1024x4096 .bf16) (x2 : Vec Ideal S1x1024 .f32) (y : S1024x1024.Idx) :
    k0_pay1 (F := Ideal) x0 x1 x2 y = (∑ k : Fin 4096, x0 (ix2 (y 0) k) * x1 (ix2 (y 1) k)) + x2 (ix2 0 (y 1)) := by
  obtain ⟨p, q, rfl⟩ : ∃ (p q : Fin 1024), y = ix2 p q := ⟨y 0, y 1, eq_ix2 y⟩
  exact Tile.pay_entry x0 x1 x2 p q

/-- The index maps over the grid: the `x` block follows the tile's row of tiles, the weight and bias
    blocks its column of tiles, and the tile indices stay within 8 × 4. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every tile of the 8 × 4 arrangement is some grid point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- What point `t` writes back is tile `t` of `x · wᵀ + b` over the staged arrays. -/
theorem flushed_eq (c : Dev nD) (t : Fin cfg0.N) :
    (dats m 0 c).flushed 3 t
      = ((cfg0.win 3).blk t).view.read (Elt Ideal) (tiled (xArr m c) (wArr m c) (bArr m c)) := by
  rw [Value.flushed3]
  unfold out0_3
  rw [View.canon_unit_zero hz]
  simp only [View.ld_unit_zero (S := S1024x4096) hz, View.ld_unit_zero (S := S1x1024) hz]
  obtain ⟨e0, e1, e2, e3, e4, e5, e6, e7⟩ := idx_facts t
  funext j
  refine (pay_at (iblk m c 0 t) (iblk m c 1 t) (iblk m c 2 t) j).trans ?_
  show _ = tiled (xArr m c) (wArr m c) (bArr m c) (((cfg0.win 3).blk t).view.emb j)
  rw [tiled_apply]
  have hj0 : (j 0).val < 1024 := (j 0).isLt
  have hj1 : (j 1).val < 1024 := (j 1).isLt
  refine congrArg₂ (· + ·) (Finset.sum_congr rfl fun k _ => congrArg₂ (· * ·) ?_ ?_) ?_
  · -- row `j 0` of the `x` block is row `1024·a + j 0` of `x`
    show xArr m c (((cfg0.win 0).blk t).view.emb (ix2 (j 0) k)) = _
    refine congrArg (xArr m c) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 4096 + 1 * k.val = k.val; omega
  · -- row `j 1` of the weight block is row `1024·b + j 1` of the weight
    show wArr m c (((cfg0.win 1).blk t).view.emb (ix2 (j 1) k)) = _
    refine congrArg (wArr m c) (funext fun a => Fin.ext ?_)
    match a with
    | ⟨0, _⟩ => show win0_1.index t (0 : Fin 2) * 1024 + 1 * (j 1).val = win0_3.index t (1 : Fin 2) * 1024 + 1 * (j 1).val; omega
    | ⟨1, _⟩ => show win0_1.index t (1 : Fin 2) * 4096 + 1 * k.val = k.val; omega
  · -- entry `j 1` of the bias block is entry `1024·b + j 1` of the bias row
    show bArr m c (((cfg0.win 2).blk t).view.emb (ix2 0 (j 1))) = _
    refine congrArg (bArr m c) (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega

/-- An index of the result is in point `t`'s tile iff each coordinate is in the tile's range on its axis. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v22).slice (win0_3.rect t)).set ↔ _
  rw [View.set_slice_whole, Rect.mem_set_unit]
  exact Iff.rfl

/-- Every index of the result is in some point's tile: the one at row of tiles `i 0 / 1024`, column `i 1 / 1024`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The result array after the run is `x · wᵀ + b` over the staged arrays. -/
theorem final (c : Dev nD) :
    (dats m 0 c).arrAt 3 cfg0.N = tiled (xArr m c) (wArr m c) (bArr m c) :=
  (dats m 0 c).arrAt_eq_of_cover 3 (tiled (xArr m c) (wArr m c) (bArr m c))
    (fun t _ => flushed_eq m c t) cover

/-- The run with the result array named as that function, the arguments unchanged. -/
theorem run : θ_run defs (onTc (τ := τ) (main (F := Ideal))) ⟨m, fun _ => 0, ρ⟩ fun r => ∀ c : Dev nD,
      r.2.mem ((c : Thread nD τ).loc main_v22) = tiled (xArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.LinearEntry.lean ====
/-
  The linear layer, entry by entry. For an 8192×4096 array `x`, a 4096×4096 weight `w` stored row by output
  feature, and a bias `b` of length 4096, the layer's value at row `r` and feature `s` is

      (∑ k, x[r, k] · w[s, k]) + b[s],

  the product of `x` with the transposed weight plus the bias row, over the extended reals. It is stated over
  arbitrary entries: how the weight is obtained from its packed form plays no part in it.
-/
import Idealize.ShloMosaic.Lib.ValueIdx
import Idealize.ShloMosaic.PureOps.Ideal

noncomputable section

namespace Cert.Linear

open Idealize.ShloMosaic Idealize.ShloMosaic.ValueIdx

/-- `x · wᵀ + b` at the entry `i = (r, s)`: the sum over the shared coordinate `k` of `x[r, k] · w[s, k]`, plus `b[s]`. -/
def out (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0) k) * w (ix2 (i 1) k)) + b (ix1 (i 1))

theorem out_apply (x : (⟨2, ![8192, 4096]⟩ : Shape).Idx → EReal) (w : (⟨2, ![4096, 4096]⟩ : Shape).Idx → EReal)
    (b : (⟨1, ![4096]⟩ : Shape).Idx → EReal) (r : Fin 8192) (s : Fin 4096) :
    out x w b (ix2 r s) = (∑ k : Fin 4096, x (ix2 r k) * w (ix2 s k)) + b (ix1 s) := rfl

end Cert.Linear

end
-- ==== Proof.ReferenceEntry.lean ====
/-
  The reference's result, entry by entry. Its last stages transpose the weight, contract `x` with the transposed
  weight along the shared coordinate, and add the bias copied to every row. Read at row `r` and feature `s` this is
  `(∑ k, x[r, k] · w[s, k]) + b[s]`, the linear layer's entry, with `w` whatever the earlier stages leave as the
  4096×4096 weight.
-/
import proofs.«402993_j24721831756580_1_alg».proof.Proof.Gen.ReferenceIdeal.Read
import proofs.«402993_j24721831756580_1_alg».proof.Proof.LinearEntry

noncomputable section

namespace Cert.ReferenceIdeal.Entry

open Cert.ReferenceIdeal Cert.ReferenceIdeal.Read Idealize.ShloMosaic Idealize.ShloMosaic.ValueIdx

/-- The reference's result array is the linear layer of `x`, the weight stage and the bias. -/
theorem result_eq (x0 : (⟨S8192x4096, .f32⟩ : BufTy).Contents (Elt Ideal)) (x1 : (⟨S8388608, .i32⟩ : BufTy).Contents (Elt Ideal))
    (x2 x3 : (⟨S131072, .f32⟩ : BufTy).Contents (Elt Ideal)) (x4 : (⟨S4096, .f32⟩ : BufTy).Contents (Elt Ideal)) :
    val_main_v23 (F := Ideal) x0 x1 x2 x3 x4 = Cert.Linear.out x0 (val_main_v18 (F := Ideal) x1 x2 x3) x4 := by
  funext i
  obtain ⟨r, s, rfl⟩ : ∃ (r : Fin 8192) (s : Fin 4096), i = ix2 r s := ⟨i 0, i 1, eq_ix2 i⟩
  rw [val_main_v23_apply, val_main_v20_apply, val_main_v22_apply, val_main_v21_apply, Cert.Linear.out_apply]
  refine congrArg₂ (· + ·) (Finset.sum_congr rfl fun k _ => ?_) (congrArg x4 ?_)
  · rw [val_main_v19_apply]
    -- the contraction reads `x` at `(r, k)` and the transposed weight at `(k, s)`, the weight at `(s, k)`
    have el : lidx_main_v20 (ix2 r s) k = ix2 r k := funext fun a => Fin.ext (by
      match a with
      | ⟨0, _⟩ => rfl
      | ⟨1, _⟩ => rfl)
    have er : idx_main_v19 (ridx_main_v20 (ix2 r s) k) = ix2 s k := funext fun a => Fin.ext (by
      match a with
      | ⟨0, _⟩ => rfl
      | ⟨1, _⟩ => rfl)
    rw [el, er]
  · funext a
    match a with
    | ⟨0, _⟩ => rfl

end Cert.ReferenceIdeal.Entry

end
-- ==== Proof.StagedArrays.lean ====
/-
  The arrays the tiled product reads are the arguments, up to steps that change no value. Before the product the
  program casts `x` and the weight to a narrower float format, which leaves every extended real as it is, and
  reshapes the bias of length 4096 to one row. The weight itself is produced by the same unpacking of the 4-bit
  codes, scaling and shifting that the reference applies, operation for operation. So the kernel's result is the
  linear layer of `x`, that weight and the bias.
-/
import proofs.«402993_j24721831756580_1_alg».proof.Proof.KernelArray
import proofs.«402993_j24721831756580_1_alg».proof.Proof.ReferenceEntry
import proofs.«402993_j24721831756580_1_alg».proof.Proof.LinearEntry
import Idealize.ShloMosaic.Lib.StableHlo.Run
import Idealize.ShloMosaic.Lib.Pipeline.Value

noncomputable section

namespace Cert.Staged

open Idealize.ShloMosaic Idealize.ShloMosaic.TcCoe Idealize.SL.Sem Idealize.ShloMosaic.StableHlo
open Idealize.ShloMosaic.ValueIdx
open Cert.KernelIdeal Cert.KernelIdeal.Gen Cert.KernelIdeal.Whole

variable (m : (ℓ : Loc nD τ sig) → Buf (Elt Ideal) ℓ)

/-- The staged `x` is the argument: the cast keeps every entry. -/
theorem x_staged (c : Dev nD) : xArr m c = m ((c : Thread nD τ).loc main_arg0) := by
  show (V m c main_v20 : S8192x4096.Idx → EReal) = _
  dsimp only [V, hostOps0]
  after_results
  rfl

set_option maxHeartbeats 2000000 in
/-- The staged weight is the reference's weight stage of the same three arguments: the same operations in the same
    order, then a cast that keeps every entry. -/
theorem w_staged (c : Dev nD) :
    wArr m c = Cert.ReferenceIdeal.Read.val_main_v18 (F := Ideal) (m ((c : Thread nD τ).loc main_arg1))
      (m ((c : Thread nD τ).loc main_arg2)) (m ((c : Thread nD τ).loc main_arg3)) := by
  show (V m c main_v19 : S4096x4096.Idx → EReal) = _
  dsimp only [V, hostOps0]
  after_results
  rfl

/-- The staged bias row at column `s` is the bias at `s`. -/
theorem b_staged (c : Dev nD) (s : Fin 4096) : bArr m c (ix2 0 s) = m ((c : Thread nD τ).loc main_arg4) (ix1 s) := by
  have e : bArr m c = shapeCast S1x4096 (m ((c : Thread nD τ).loc main_arg4)) shapeCasts_S4096_S1x4096 := by
    show (V m c main_v21 : S1x4096.Idx → EReal) = _
    dsimp only [V, hostOps0]
    after_results
    rfl
  rw [e]
  refine (shapeCast_addUnit_apply ![4096] _ shapeCasts_S4096_S1x4096 (ix2 0 s)).trans ?_
  exact congrArg _ (funext fun a => match a with
    | ⟨0, _⟩ => rfl)

/-- The kernel's result array is the linear layer of the arguments. -/
theorem tiled_eq (c : Dev nD) :
    tiled (xArr m c) (wArr m c) (bArr m c)
      = Cert.Linear.out (m ((c : Thread nD τ).loc main_arg0))
          (Cert.ReferenceIdeal.Read.val_main_v18 (F := Ideal) (m ((c : Thread nD τ).loc main_arg1))
            (m ((c : Thread nD τ).loc main_arg2)) (m ((c : Thread nD τ).loc main_arg3)))
          (m ((c : Thread nD τ).loc main_arg4)) := by
  funext i
  obtain ⟨r, s, rfl⟩ : ∃ (r : Fin 8192) (s : Fin 4096), i = ix2 r s := ⟨i 0, i 1, eq_ix2 i⟩
  rw [Cert.Linear.out_apply, tiled_apply, x_staged, w_staged]
  exact congrArg₂ (· + ·) rfl (b_staged m c s)

end Cert.Staged

end
-- ==== Proof.lean ====
/-
  A quantized linear layer against its plain form. The weight is stored as 4-bit codes, two per word, with a scale
  and an offset per group of 128; both programs unpack it the same way, operation for operation. The kernel then
  multiplies `x` by the transposed weight tile by tile — an 8 × 4 grid of 1024×1024 tiles, each a full-length inner
  product accumulated from zero — and adds the bias; the reference does one whole product and adds the bias. Over
  the extended reals a change of float format changes nothing, so both results are, at row `r` and feature `s`,

      (∑ k, x[r, k] · w[s, k]) + b[s].

  No law beyond that identity of the two sums is used, so the finiteness of the inputs is never needed.
-/
import proofs.«402993_j24721831756580_1_alg».proof.Defs
import proofs.«402993_j24721831756580_1_alg».proof.Proof.Gen.Kernel
import proofs.«402993_j24721831756580_1_alg».proof.Proof.Gen.Kernel.Skeleton
import proofs.«402993_j24721831756580_1_alg».proof.Proof.Gen.Kernel.Launch
import proofs.«402993_j24721831756580_1_alg».proof.Proof.Gen.Kernel.Points
import proofs.«402993_j24721831756580_1_alg».proof.Proof.Gen.Kernel.Frame
import proofs.«402993_j24721831756580_1_alg».proof.Proof.Gen.KernelIdeal
import proofs.«402993_j24721831756580_1_alg».proof.Proof.Gen.KernelIdeal.Skeleton
import proofs.«402993_j24721831756580_1_alg».proof.Proof.Gen.KernelIdeal.Launch
import proofs.«402993_j24721831756580_1_alg».proof.Proof.Gen.KernelIdeal.Points
import proofs.«402993_j24721831756580_1_alg».proof.Proof.Gen.KernelIdeal.Frame
import proofs.«402993_j24721831756580_1_alg».proof.Proof.Gen.ReferenceIdeal
import proofs.«402993_j24721831756580_1_alg».proof.Proof.Gen.Pre_finite_inputs
import proofs.«402993_j24721831756580_1_alg».proof.Proof.Gen.KernelIdeal.Value
import proofs.«402993_j24721831756580_1_alg».proof.Proof.Gen.ReferenceIdeal.Run
import proofs.«402993_j24721831756580_1_alg».proof.Proof.Gen.ReferenceIdeal.Read
import proofs.«402993_j24721831756580_1_alg».proof.Proof.KernelArray
import proofs.«402993_j24721831756580_1_alg».proof.Proof.ReferenceEntry
import proofs.«402993_j24721831756580_1_alg».proof.Proof.StagedArrays
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the linear layer of the arguments: the kernel tile by tile, the reference by one whole
    product, over the same unpacked weight. -/
theorem algebraic : Cert.algebraic_KernelIdeal_ReferenceIdeal := by
  intro m ρ m' ρ' _ hagree
  refine ⟨fun c => Cert.Linear.out (m ((c.tc : Thread Cert.KernelIdeal.nD Cert.KernelIdeal.τ).loc Cert.KernelIdeal.main_arg0))
      (Cert.ReferenceIdeal.Read.val_main_v18 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)), ?_, ?_⟩
  · exact (θ_run Cert.KernelIdeal.defs _ _).mono (fun r h c => ⟨(h c).1.trans (Cert.Staged.tiled_eq m c), (h c).2⟩)
      (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.ReferenceIdeal.Entry.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
